-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg1 : IVec S1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S1600000 32 := broadcastInDim S1600000 ![] bcast_S_S1600000 main_c_6
  let main_v20 : IVec S1600000 1 := cmpi .sge main_arg1 main_v19
  let main_c_7 : IVec S_ 1 := constantI S_ 1 1#1
  let main_v21 : IVec S_ 1 := (fun x v => Host.reduce IntOp.andi x v reducesTo_S1600000_S_d0 h_S_) main_v20 main_c_7
  let main_v22 : IVec S_ 1 := andi main_v18 main_v21
  let main_c_8 : IVec S_ 32 := constantI S_ 32 100000#32
  let main_v23 : IVec S1600000 32 := broadcastInDim S1600000 ![] bcast_S_S1600000 main_c_8
  let main_v24 : IVec S1600000 1 := cmpi .slt main_arg1 main_v23
  let main_c_9 : IVec S_ 1 := constantI S_ 1 1#1
  let main_v25 : IVec S_ 1 := (fun x v => Host.reduce IntOp.andi x v reducesTo_S1600000_S_d0 h_S_) main_v24 main_c_9
  let main_v26 : IVec S_ 1 := andi main_v22 main_v25
  main_v26

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S2000x128 : Shape := ⟨2, ![2000, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩

abbrev nBuf : Space → Nat
  | .hbm => 38
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1, .i32⟩
  | .hbm, ⟨16, _⟩ => ⟨S_, .i32⟩
  | .hbm, ⟨17, _⟩ => ⟨S1600000x1, .i32⟩
  | .hbm, ⟨18, _⟩ => ⟨S1600000x1, .i1⟩
  | .hbm, ⟨19, _⟩ => ⟨S1x1, .i32⟩
  | .hbm, ⟨20, _⟩ => ⟨S1600000x1, .i32⟩
  | .hbm, ⟨21, _⟩ => ⟨S1600000x1, .i1⟩
  | .hbm, ⟨22, _⟩ => ⟨S1600000x1, .i1⟩
  | .hbm, ⟨23, _⟩ => ⟨S_, .i1⟩
  | .hbm, ⟨24, _⟩ => ⟨S1600000, .i1⟩
  | .hbm, ⟨25, _⟩ => ⟨S1600000x128, .f32⟩
  | .hbm, ⟨26, _⟩ => ⟨S1600000x128, .i1⟩
  | .hbm, ⟨27, _⟩ => ⟨S_, .f32⟩
  | .hbm, ⟨28, _⟩ => ⟨S1600000x128, .f32⟩
  | .hbm, ⟨29, _⟩ => ⟨S1600000x128, .f32⟩
  | .hbm, ⟨30, _⟩ => ⟨S1600000x1, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.SourceRange.lean ====
/-
  What the precondition says of the source indices. The printed precondition is a conjunction of six `jnp.all`s; its
  last two say that every entry of `edge_src` is at least 0 and below 100000, the number of rows of the node table.
  Read at the one index of the scalar result, the conjunction splits into its conjuncts, and an all-reduction by
  `and` that is 1 had a 1 at every element: so each source index `s` has `s ≥ 0` and `s < 100000` as signed words.
-/
import proofs.«418550_j16801912062643_1_alg».proof.Defs
import proofs.«418550_j16801912062643_1_alg».proof.Proof.Gen.KernelIdeal
import proofs.«418550_j16801912062643_1_alg».proof.Proof.Gen.Pre_finite_inputs
import Idealize.ShloMosaic.Lib.ReduceAll
import Idealize.ShloMosaic.Lib.Pipeline.Value
import Idealize.ShloMosaic.Lib.ValueIdx

noncomputable section

namespace Cert.KernelIdeal.SourceRange

open Idealize.ShloMosaic Idealize.SL.Sem

instance : Subsingleton Cert.Pre_finite_inputs.S_.Idx := ⟨fun a b => funext fun d => d.elim0⟩

/-- A scalar broadcast to the edge list reads the scalar at every edge. -/
theorem splat_apply (w : BitVec 32) (p : Cert.Pre_finite_inputs.S1600000.Idx) :
    broadcastInDim Cert.Pre_finite_inputs.S1600000 ![] Cert.Pre_finite_inputs.Facts.bcast_S_S1600000
      (constantI Cert.Pre_finite_inputs.S_ 32 w) p = w :=
  broadcastInDim_apply _ Cert.Pre_finite_inputs.Facts.bcast_S_S1600000 (constantI Cert.Pre_finite_inputs.S_ 32 w) p
    (fun a => a.elim0) (fun a => a.elim0)

/-- Under the precondition every source index is a row of the node table: `0 ≤ s` and `s < 100000`. -/
theorem src_in_range (m : (ℓ : Loc Cert.KernelIdeal.nD Cert.KernelIdeal.τ Cert.KernelIdeal.sig) → Buf (Elt Ideal) ℓ)
    (hpre : Cert.Pre_KernelIdeal m) (c : Dev Cert.KernelIdeal.nD) (p : Cert.Pre_finite_inputs.S1600000.Idx) :
    IntOp.cmpi .sge (m ((c.tc : Thread Cert.KernelIdeal.nD Cert.KernelIdeal.τ).loc Cert.KernelIdeal.main_arg1) p) 0#32 = 1#1
    ∧ IntOp.cmpi .slt (m ((c.tc : Thread Cert.KernelIdeal.nD Cert.KernelIdeal.τ).loc Cert.KernelIdeal.main_arg1) p) 100000#32 = 1#1 := by
  have h := congrFun (hpre c) ValueIdx.ix0
  dsimp only [Cert.Pre_finite_inputs.fn, Cert.Pre_finite_inputs.fn_part1] at h
  obtain ⟨h22, h25⟩ := IntOp.andi_eq_one.1 h
  obtain ⟨-, h21⟩ := IntOp.andi_eq_one.1 h22
  have ge := Host.reduce_andi_all _ _ _ _ _ h21 p
  have lt := Host.reduce_andi_all _ _ _ _ _ h25 p
  refine ⟨?_, ?_⟩
  · have e : IntOp.cmpi .sge (m ((c.tc : Thread Cert.KernelIdeal.nD Cert.KernelIdeal.τ).loc Cert.KernelIdeal.main_arg1) p)
        (broadcastInDim Cert.Pre_finite_inputs.S1600000 ![] Cert.Pre_finite_inputs.Facts.bcast_S_S1600000
          (constantI Cert.Pre_finite_inputs.S_ 32 0#32) p) = 1#1 := ge
    rwa [splat_apply] at e
  · have e : IntOp.cmpi .slt (m ((c.tc : Thread Cert.KernelIdeal.nD Cert.KernelIdeal.τ).loc Cert.KernelIdeal.main_arg1) p)
        (broadcastInDim Cert.Pre_finite_inputs.S1600000 ![] Cert.Pre_finite_inputs.Facts.bcast_S_S1600000
          (constantI Cert.Pre_finite_inputs.S_ 32 100000#32) p) = 1#1 := lt
    rwa [splat_apply] at e

end Cert.KernelIdeal.SourceRange

end
-- ==== Proof.Projection.lean ====
/-
  The first pipeline's value: the projected node features. The pipeline walks the 100000 rows of the node features
  in fifty blocks of 2000 rows; at each block it multiplies the block by the whole 128 × 128 weight matrix (the
  operands narrowed to bf16 first, which over the extended reals changes nothing) into a zero accumulator and
  writes the product back as the same 2000 rows of the result. An entry of a block's product is the sum over the
  contracted axis of a row entry times a column entry, the fifty blocks tile the rows, and so the array the pipeline
  leaves is the one matrix product: entry (r, c) is the sum over k of features (r, k) times weights (k, c).
-/
import proofs.«418550_j16801912062643_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen Idealize.ShloMosaic Idealize.ShloMosaic.TcCoe Idealize.SL.Sem
open Idealize.ShloMosaic.Pipeline (Dat)

/-- The feature entry in the row of `i` at contraction position `k`. -/
abbrev featAt (i : S100000x128.Idx) (k : Fin 128) : S100000x128.Idx := fun a => match a with
  | ⟨0, _⟩ => ⟨(i 0).val, (i 0).isLt⟩
  | ⟨1, _⟩ => ⟨k.val, k.isLt⟩
/-- The weight entry in the column of `i` at contraction position `k`. -/
abbrev weightAt (i : S100000x128.Idx) (k : Fin 128) : S128x128.Idx := fun a => match a with
  | ⟨0, _⟩ => ⟨k.val, k.isLt⟩
  | ⟨1, _⟩ => ⟨(i 1).val, (i 1).isLt⟩

/-- The projected features: features times weights, entry by entry a sum over the 128 contracted positions. -/
def proj (x : S100000x128.Idx → EReal) (w : S128x128.Idx → EReal) : S100000x128.Idx → EReal :=
  fun i => ∑ k : Fin 128, x (featAt i k) * w (weightAt i k)

/-! ## One block's product -/

/-- Inside a block: the left operand's entry in the row of `j` at position `k`, -/
abbrev lhsAt (j : S2000x128.Idx) (k : Fin 128) : S2000x128.Idx := fun a => match a with
  | ⟨0, _⟩ => ⟨(j 0).val, (j 0).isLt⟩
  | ⟨1, _⟩ => ⟨k.val, k.isLt⟩
/-- and the weight entry in the column of `j` at position `k`. -/
abbrev rhsAt (j : S2000x128.Idx) (k : Fin 128) : S128x128.Idx := fun a => match a with
  | ⟨0, _⟩ => ⟨k.val, k.isLt⟩
  | ⟨1, _⟩ => ⟨(j 1).val, (j 1).isLt⟩

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_pos (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_pos (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's product of a 2000-row block with the weights, read at an entry: the narrowing to bf16 is the identity
    over the extended reals, the accumulator starts at zero, and the one contracted axis is indexed by its position. -/
theorem block_product (x0 : Vec Ideal S2000x128 .f32) (x1 : Vec Ideal S128x128 .f32) (j : S2000x128.Idx) :
    k0_pay1 x0 x1 j = ∑ k : Fin 128, x0 (lhsAt j k) * x1 (rhsAt j k) := by
  unfold k0_pay1
  refine (Ideal.matmul_constant_zero_apply dot_S2000x128_S128x128_S2000x128_1_0_0_1_n_n none (truncf .bf16 x0 bitsLt_bf16_f32) (truncf .bf16 x1 bitsLt_bf16_f32) j).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = lhsAt j k := funext fun a => Fin.ext (by
    match a with
    | ⟨0, _⟩ => exact lhs_row _ _
    | ⟨1, _⟩ => exact (lhs_pos _ _).trans hk)
  have er : dot_S2000x128_S128x128_S2000x128_1_0_0_1_n_n.rhsIdx j ((ValueIdx.contrEquiv1 dot_S2000x128_S128x128_S2000x128_1_0_0_1_n_n 128 rfl rfl).symm k) = rhsAt j k := funext fun a => Fin.ext (by
    match a with
    | ⟨0, _⟩ => exact (rhs_pos _ _).trans hk
    | ⟨1, _⟩ => exact rhs_col _ _)
  rw [el, er]
  rfl

/-! ## From the blocks to the array -/

variable (V : (c : Dev nD) → (b : Ref sig .tc) → Buf (Elt Ideal) ((c : Thread nD τ).loc b))

/-- The node features and the weights as the pipeline finds them, as plain arrays of extended reals. -/
abbrev feats (c : Dev nD) : S100000x128.Idx → EReal := V c main_arg0
abbrev weights (c : Dev nD) : S128x128.Idx → EReal := V c main_arg4

theorem hz : (![0, 0] : Fin 2 → Nat) = fun _ => 0 := funext fun a => by fin_cases a <;> rfl

/-- The printed index maps over the fifty points: the feature block moves with the result block down the rows, the
    weights stay at block (0, 0), and the result's row-block index stays below fifty. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every one of the fifty row blocks is some point's. -/
theorem idx_onto : ∀ (q0 : Fin 50), ∃ t : Fin cfg0.N, win0_2.index t = ![q0.val, 0] :=
  (by decide +kernel : ∀ (q0 : Fin 50), ∃ t : Fin grid0.N, win0_2.index t = ![q0.val, 0])

/-- What point `t` writes back is block `t` of the projected features of the arrays as the pipeline finds them. -/
theorem flushed_eq (c : Dev nD) (t : Fin cfg0.N) :
    (dat0 V c).flushed 2 t = ((cfg0.win 2).blk t).view.read (Elt Ideal) (proj (V c main_arg0) (V c main_arg4)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext j
  show k0_pay1 (iblk0 V c 0 t) (iblk0 V c 1 t) j = proj (V c main_arg0) (V c main_arg4) (((cfg0.win 2).blk t).view.emb j)
  refine (block_product (iblk0 V c 0 t) (iblk0 V c 1 t) j).trans ?_
  unfold proj
  refine Finset.sum_congr rfl fun k _ => ?_
  show feats V c (((cfg0.win 0).blk t).view.emb (lhsAt j k)) * weights V c (((cfg0.win 1).blk t).view.emb (rhsAt j k))
    = feats V c (featAt (((cfg0.win 2).blk t).view.emb j) k) * weights V c (weightAt (((cfg0.win 2).blk t).view.emb j) k)
  have h0 : ((cfg0.win 0).blk t).view.emb (lhsAt j k) = featAt (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : ((cfg0.win 1).blk t).view.emb (rhsAt j k) = weightAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An entry of the result array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- The fifty blocks cover the array: row `r` lies in block `r / 2000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The array the first pipeline leaves is the projected features of the arrays it was entered with. -/
theorem final (c : Dev nD) : (dat0 V c).arrAt 2 cfg0.N = proj (V c main_arg0) (V c main_arg4) :=
  (dat0 V c).arrAt_eq_of_cover 2 (proj (V c main_arg0) (V c main_arg4)) (fun t _ => flushed_eq V c t) cover

end Cert.KernelIdeal.Projection

end
-- ==== Proof.BiasAdd.lean ====
/-
  The second pipeline's value: the bias added to every row. The pipeline walks the 100000 rows of its input in fifty
  blocks of 2000 rows; at each block it adds the 128 biases, laid out as one row and repeated down the block's rows,
  and writes the sum back as the same 2000 rows of the result. The fifty blocks tile the rows, so the array the
  pipeline leaves has, at entry (r, c), the input's entry (r, c) plus bias c.
-/
import proofs.«418550_j16801912062643_1_alg».proof.Proof.Gen.KernelIdeal.Frame
import Idealize.ShloMosaic.Lib.Pipeline.Value
import Idealize.ShloMosaic.Lib.ValueIdx

set_option maxRecDepth 16384

noncomputable section

namespace Cert.KernelIdeal.BiasAdd

open Cert.KernelIdeal Cert.KernelIdeal.Gen Idealize.ShloMosaic Idealize.ShloMosaic.TcCoe Idealize.SL.Sem
open Idealize.ShloMosaic.Pipeline (Dat)

/-- The bias that goes with the column of `i`. -/
abbrev biasOf (i : S100000x128.Idx) : S128.Idx := fun a => match a with
  | ⟨0, _⟩ => ⟨(i 1).val, (i 1).isLt⟩

/-- The rows with the bias added: entry (r, c) of `y` plus bias c. -/
def withBias (y : S100000x128.Idx → EReal) (b : S128.Idx → EReal) : S100000x128.Idx → EReal :=
  fun i => y i + b (biasOf i)

/-! ## One block's sum -/

/-- Inside a block: the bias that goes with the column of `j`, -/
abbrev biasAt (j : S2000x128.Idx) : S128.Idx := fun a => match a with
  | ⟨0, _⟩ => ⟨(j 1).val, (j 1).isLt⟩
/-- and its place in the one-row layout of the biases. -/
abbrev rowAt (j : S2000x128.Idx) : S1x128.Idx := fun a => match a with
  | ⟨0, _⟩ => ⟨0, Nat.one_pos⟩
  | ⟨1, _⟩ => ⟨(j 1).val, (j 1).isLt⟩

/-- The body's sum read at an entry: the block's entry plus the bias of its column (the biases cast to one row, the row
    repeated down the block). -/
theorem block_sum (x0 : Vec Ideal S2000x128 .f32) (x1 : Vec Ideal S128 .f32) (j : S2000x128.Idx) :
    k1_pay1 x0 x1 j = x0 j + x1 (biasAt j) := by
  unfold k1_pay1
  rw [shapeCast_self]
  show x0 j + broadcastTo S2000x128 (shapeCast S1x128 x1 shapeCasts_S128_S1x128) broadcasts_S1x128_S2000x128 j = _
  rw [broadcastTo_apply _ broadcasts_S1x128_S2000x128 j (rowAt j) (fun a => by
      match a with
      | ⟨0, _⟩ => show 0 = if (1 : Nat) = 1 then 0 else _; rw [if_pos rfl]
      | ⟨1, _⟩ => show (j 1).val = if (128 : Nat) = 1 then 0 else (j 1).val; rw [if_neg (by decide)]),
    shapeCast_apply x1 shapeCasts_S128_S1x128 (rowAt j) (biasAt j) (by
      rw [Shape.rowMajor_val_one, Shape.rowMajor_val_two]
      show (j 1).val = 0 * 128 + (j 1).val
      omega)]

/-! ## From the blocks to the array -/

variable (V : (c : Dev nD) → (b : Ref sig .tc) → Buf (Elt Ideal) ((c : Thread nD τ).loc b))

/-- The pipeline's input and the biases as it finds them, as plain arrays of extended reals. -/
abbrev rowsIn (c : Dev nD) : S100000x128.Idx → EReal := V c main_v7
abbrev biases (c : Dev nD) : S128.Idx → EReal := V c main_arg5

theorem hz2 : (![0, 0] : Fin 2 → Nat) = fun _ => 0 := funext fun a => by fin_cases a <;> rfl
theorem hz1 : (![0] : Fin 1 → Nat) = fun _ => 0 := funext fun a => by fin_cases a; rfl

/-- The printed index maps over the fifty points: the input block moves with the result block down the rows, the
    biases stay at block 0, and the result's row-block index stays below fifty. -/
theorem idx_facts : ∀ t : Fin cfg1.N, win1_0.index t (0 : Fin 2) = win1_2.index t (0 : Fin 2)
    ∧ win1_0.index t (1 : Fin 2) = 0
    ∧ win1_1.index t (0 : Fin 1) = 0
    ∧ win1_2.index t (1 : Fin 2) = 0
    ∧ win1_2.index t (0 : Fin 2) ≤ 49 :=
  (by decide +kernel : ∀ t : Fin grid1.N, _)

/-- Every one of the fifty row blocks is some point's. -/
theorem idx_onto : ∀ (q0 : Fin 50), ∃ t : Fin cfg1.N, win1_2.index t = ![q0.val, 0] :=
  (by decide +kernel : ∀ (q0 : Fin 50), ∃ t : Fin grid1.N, win1_2.index t = ![q0.val, 0])

/-- What point `t` writes back is block `t` of the input with the bias added, of the arrays as the pipeline finds them. -/
theorem flushed_eq (c : Dev nD) (t : Fin cfg1.N) :
    (dat1 V c).flushed 2 t = ((cfg1.win 2).blk t).view.read (Elt Ideal) (withBias (V c main_v7) (V c main_arg5)) := by
  show (cfg1.win 2).cut (grid1.coords t) ((dat1 V c).after 2 t) = _
  rw [after1_2]
  unfold out1_2
  rw [View.canon_unit_zero hz2]
  simp only [View.ld_unit_zero (S := S2000x128) hz2, View.ld_unit_zero (S := S128) hz1]
  obtain ⟨e0, e1, e2, e3, e4⟩ := idx_facts t
  funext j
  show k1_pay1 (iblk1 V c 0 t) (iblk1 V c 1 t) j = withBias (V c main_v7) (V c main_arg5) (((cfg1.win 2).blk t).view.emb j)
  refine (block_sum (iblk1 V c 0 t) (iblk1 V c 1 t) j).trans ?_
  unfold withBias
  show rowsIn V c (((cfg1.win 0).blk t).view.emb j) + biases V c (((cfg1.win 1).blk t).view.emb (biasAt j))
    = rowsIn V c (((cfg1.win 2).blk t).view.emb j) + biases V c (biasOf (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (biasAt j) = biasOf (((cfg1.win 2).blk t).view.emb j) := by
    funext a; apply Fin.ext
    match a with
    | ⟨0, _⟩ => show win1_1.index t (0 : Fin 1) * 128 + 1 * (j 1).val = win1_2.index t (1 : Fin 2) * 128 + 1 * (j 1).val; omega
  rw [h0, h1]

/-- An entry of the result array is in point `t`'s block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v8).slice (win1_2.rect t)).set ↔ _
  rw [View.set_slice_whole, Rect.mem_set_unit]
  exact Iff.rfl

/-- The fifty blocks cover the array: row `r` lies in block `r / 2000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The array the second pipeline leaves is its input with the bias added, of the arrays it was entered with. -/
theorem final (c : Dev nD) : (dat1 V c).arrAt 2 cfg1.N = withBias (V c main_v7) (V c main_arg5) :=
  (dat1 V c).arrAt_eq_of_cover 2 (withBias (V c main_v7) (V c main_arg5)) (fun t _ => flushed_eq V c t) cover

end Cert.KernelIdeal.BiasAdd

end
-- ==== Proof.LibAndReduce.lean ====
/-
  An all-reduction by `and` of one-bit words that are all 1 is 1: the converse of reading a 1 result back to its
  elements. A `stablehlo.reduce` by `and` is a left fold, from the initial value's element, over the operand elements
  that reduce into a result position; a fold by `and` that starts at 1 and meets only 1s ends at 1.
-/
import Idealize.ShloMosaic.Lib.ReduceAll

namespace Cert.LibAndReduce

open Idealize.ShloMosaic

/-- A left fold by `and` over one-bit words that starts at 1 and meets only 1s ends at 1. -/
theorem foldl_andi_of_all {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl =>
    foldl_andi_of_all f l (IntOp.andi init (f a)) (IntOp.andi_eq_one.2 ⟨h, hl a (by simp)⟩)
      (fun n hn => hl n (List.mem_cons_of_mem _ hn))

/-- A `stablehlo.reduce` by `and` whose initial value is 1 and whose operand is 1 everywhere is 1 at every
    result position, whatever the reduced axes. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_of_all x _ _ hinit (fun n _ => hx n)

end Cert.LibAndReduce
-- ==== Proof.Messages.lean ====
/-
  Between the two pipelines: the messages along the edges and their sum per node.
  Every edge `e` looks up the row `src e` of a table of node rows. The lookup is `jnp.take` in its default mode:
  a negative index counts from the end (100000 is added to it), the row at the resulting index is gathered, and an
  edge whose resulting index is outside `0 … 99999` gets a row of NaNs instead. The gathered row is scaled by the
  edge's weight, and the scaled rows are added up per destination node into an array of zeros.
  When every source index already names a row of the table (`0 ≤ src e < 100000`) the index is not moved, the range
  test holds on every edge, and the lookup is the plain gather: no NaN row is ever chosen.
-/
import proofs.«418550_j16801912062643_1_alg».proof.Proof.Gen.KernelIdeal.Launch
import proofs.«418550_j16801912062643_1_alg».proof.Proof.LibAndReduce
import Idealize.ShloMosaic.Lib.StableHlo.Run
import Idealize.ShloMosaic.Lib.Pipeline.Value
import Idealize.ShloMosaic.PureOps.Ideal

set_option maxRecDepth 16384

noncomputable section

namespace Cert.KernelIdeal.Messages

open Cert.KernelIdeal Cert.KernelIdeal.Gen Idealize.ShloMosaic Idealize.ShloMosaic.TcCoe Idealize.SL.Sem
open Idealize.ShloMosaic.StableHlo

/-! ## The terms -/

/-- The source indices with the negative ones counted from the end, as a one-column table of start indices. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The range test of the lookup: per edge, whether the wrapped index is at least 0 and at most 99999, repeated
    along the row. -/
def inRange (src : IVec S1600000 32) : IVec S1600000x128 1 :=
  broadcastInDim S1600000x128 ![0] bcast_S1600000_S1600000x128_0
    (Host.reduce IntOp.andi
      (andi (cmpi .sge (wrapIdx src) (broadcastInDim S1600000x1 ![] bcast_S_S1600000x1 (constantI S_ 32 0#32)))
        (cmpi .sle (wrapIdx src) (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- The rows of the table at the wrapped source indices. -/
def lookup (tbl : FVec Ideal S100000x128 .f32) (src : IVec S1600000 32) : FVec Ideal S1600000x128 .f32 :=
  Host.gather gather_S100000x128_S1600000x1_S1600000x128_1_0_n_n_0_1_1128 tbl (wrapIdx src)

/-- The lookup as `jnp.take` makes it: the gathered row where the range test holds, a row of NaNs elsewhere. -/
def lookupFill (tbl : FVec Ideal S100000x128 .f32) (src : IVec S1600000 32) : FVec Ideal S1600000x128 .f32 :=
  select (inRange src) (lookup tbl src)
    (broadcastInDim S1600000x128 ![] bcast_S_S1600000x128 (constant (F := Ideal) S_ .f32 0x7FC00000#32))

/-- The rows scaled by the edge weights and added up per destination node, from zeros. -/
def aggregate (dst : IVec S1600000 32) (w : FVec Ideal S1600000 .f32) (rows : FVec Ideal S1600000x128 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (broadcastInDim S1600000x128 ![0, 1] bcast_S1600000x1_S1600000x128_0_1
      (broadcastInDim S1600000x1 ![0] bcast_S1600000_S1600000x1_0 w)) rows)

/-! ## The two stretches of host operations, from any contents -/

/-- Contents moved to a typed reference's own buffer type and back are the contents. -/
theorem ofBuf_toBuf {T : BufTy} (x : StableHlo.TRef sig T) (v : T.Contents (Elt Ideal)) : x.ofBuf (x.toBuf v) = v := by
  obtain ⟨r, h, hd, hu⟩ := x
  subst h
  rfl

set_option maxHeartbeats 1600000 in
/-- The first stretch (the lookup) leaves the looked-up rows, filled, of the table and the source indices it finds. -/
theorem lookup_stage (Wa : Valuation τ sig (Elt Ideal)) :
    StableHlo.after hostOps1 Wa (Proc.devRef .tc main_v1)
      = lookupFill (Wa (Proc.devRef .tc main_v0)) (Wa (Proc.devRef .tc main_arg1)) := by
  after_results
  simp only [ofBuf_toBuf]
  have e1 : (StableHlo.TRef.of main_arg1 : StableHlo.TRef sig ⟨S1600000, .i32⟩).ofBuf (Wa (Proc.devRef .tc main_arg1))
      = Wa (Proc.devRef .tc main_arg1) := rfl
  have e0 : (StableHlo.TRef.of main_v0 : StableHlo.TRef sig ⟨S100000x128, .f32⟩).ofBuf (Wa (Proc.devRef .tc main_v0))
      = Wa (Proc.devRef .tc main_v0) := rfl
  have et : ∀ v : (⟨S1600000x128, .f32⟩ : BufTy).Contents (Elt Ideal),
      (StableHlo.TRef.of main_v1 : StableHlo.TRef sig ⟨S1600000x128, .f32⟩).toBuf v = v := fun _ => rfl
  rw [et, e1, e0]
  rfl

/-- It writes none of the arrays the second stretch and the second pipeline read besides. -/
theorem lookup_keeps_arg2 (Wa : Valuation τ sig (Elt Ideal)) :
    StableHlo.after hostOps1 Wa (Proc.devRef .tc main_arg2) = Wa (Proc.devRef .tc main_arg2) := by
  after_results
theorem lookup_keeps_arg3 (Wa : Valuation τ sig (Elt Ideal)) :
    StableHlo.after hostOps1 Wa (Proc.devRef .tc main_arg3) = Wa (Proc.devRef .tc main_arg3) := by
  after_results
theorem lookup_keeps_arg5 (Wa : Valuation τ sig (Elt Ideal)) :
    StableHlo.after hostOps1 Wa (Proc.devRef .tc main_arg5) = Wa (Proc.devRef .tc main_arg5) := by
  after_results

set_option maxHeartbeats 800000 in
/-- The second stretch leaves the weighted rows summed per destination, of the contents it finds. -/
theorem aggregate_stage (Wb : Valuation τ sig (Elt Ideal)) :
    StableHlo.after hostOps1_1 Wb (Proc.devRef .tc main_v7)
      = aggregate (Wb (Proc.devRef .tc main_arg2)) (Wb (Proc.devRef .tc main_arg3)) (Wb (Proc.devRef .tc main_v1)) := by
  after_results
  rfl

theorem aggregate_keeps_arg5 (Wb : Valuation τ sig (Elt Ideal)) :
    StableHlo.after hostOps1_1 Wb (Proc.devRef .tc main_arg5) = Wb (Proc.devRef .tc main_arg5) := by
  after_results

/-! ## In range, the fill is never chosen -/

theorem sel_of_eq {α : Type} (c : BitVec 1) (a b : α) (h : c = 1#1) : Scalar.select c a b = a := by
  unfold Scalar.select; exact if_pos h
theorem sel_of_ne {α : Type} (c : BitVec 1) (a b : α) (h : c ≠ 1#1) : Scalar.select c a b = b := by
  unfold Scalar.select; exact if_neg h

/-- A signed word that is at least 0 and below 100000 is not below 0 and is at most 99999. -/
theorem word_in_range (s : BitVec 32) (h0 : IntOp.cmpi .sge s 0#32 = 1#1) (h1 : IntOp.cmpi .slt s 100000#32 = 1#1) :
    IntOp.cmpi .slt s 0#32 ≠ 1#1 ∧ IntOp.cmpi .sle s 99999#32 = 1#1 := by
  have h0' : BitVec.ofBool ((0#32 : BitVec 32).sle s) = 1#1 := h0
  have h1' : BitVec.ofBool (s.slt (100000#32 : BitVec 32)) = 1#1 := h1
  show BitVec.ofBool (s.slt (0#32 : BitVec 32)) ≠ 1#1 ∧ BitVec.ofBool (s.sle (99999#32 : BitVec 32)) = 1#1
  have z : (0#32 : BitVec 32).toInt = 0 := by decide
  have a : (100000#32 : BitVec 32).toInt = 100000 := by decide
  have b : (99999#32 : BitVec 32).toInt = 99999 := by decide
  have e : ∀ x : Bool, BitVec.ofBool x = 1#1 ↔ x = true := fun x => by cases x <;> decide
  rw [e] at h0' h1'
  rw [Ne, e, e]
  simp only [BitVec.sle, BitVec.slt, decide_eq_true_eq, z, a, b] at h0' h1' ⊢
  omega

/-- The edge of an entry of the start-index table, -/
abbrev edgeOf1 (q : S1600000x1.Idx) : S1600000.Idx := fun a => match a with
  | ⟨0, _⟩ => ⟨(q 0).val, (q 0).isLt⟩
/-- and of an entry of the looked-up rows. -/
abbrev edgeOf (i : S1600000x128.Idx) : S1600000.Idx := fun a => match a with
  | ⟨0, _⟩ => ⟨(i 0).val, (i 0).isLt⟩

theorem splat_edges (w : BitVec 32) (p : S1600000.Idx) :
    broadcastInDim S1600000 ![] bcast_S_S1600000 (constantI S_ 32 w) p = w :=
  broadcastInDim_apply _ bcast_S_S1600000 (constantI S_ 32 w) p (fun a => a.elim0) (fun a => a.elim0)
theorem splat_starts (w : BitVec 32) (q : S1600000x1.Idx) :
    broadcastInDim S1600000x1 ![] bcast_S_S1600000x1 (constantI S_ 32 w) q = w :=
  broadcastInDim_apply _ bcast_S_S1600000x1 (constantI S_ 32 w) q (fun a => a.elim0) (fun a => a.elim0)
/-- The one entry of a [1, 1] array, and of a [1] array. -/
abbrev only11 : S1x1.Idx := fun a => match a with
  | ⟨0, _⟩ => ⟨0, Nat.one_pos⟩
  | ⟨1, _⟩ => ⟨0, Nat.one_pos⟩
abbrev only1 : S1.Idx := fun a => match a with
  | ⟨0, _⟩ => ⟨0, Nat.one_pos⟩
theorem splat_last (q : S1600000x1.Idx) :
    broadcastInDim S1600000x1 ![0, 1] bcast_S1x1_S1600000x1_0_1
      (broadcastInDim S1x1 ![1] bcast_S1_S1x1_1 (constantI S1 32 99999#32)) q = 99999#32 := by
  rw [broadcastInDim_apply _ bcast_S1x1_S1600000x1_0_1 _ q only11 (fun a => by
    match a with
    | ⟨0, _⟩ => show 0 = if (1 : Nat) = 1 then 0 else _; rw [if_pos rfl]
    | ⟨1, _⟩ => show 0 = if (1 : Nat) = 1 then 0 else _; rw [if_pos rfl])]
  exact broadcastInDim_apply _ bcast_S1_S1x1_1 (constantI S1 32 99999#32) only11 only1 (fun a => by
    match a with
    | ⟨0, _⟩ => show 0 = if (1 : Nat) = 1 then 0 else _; rw [if_pos rfl])

variable (src : IVec S1600000 32)
  (hsrc : ∀ p : S1600000.Idx, IntOp.cmpi .sge (src p) 0#32 = 1#1 ∧ IntOp.cmpi .slt (src p) 100000#32 = 1#1)

include hsrc in
/-- An index that already names a row is not moved by the wrap. -/
theorem wrapIdx_apply (q : S1600000x1.Idx) : wrapIdx src q = src (edgeOf1 q) := by
  unfold wrapIdx
  rw [broadcastInDim_apply _ bcast_S1600000_S1600000x1_0 _ q (edgeOf1 q) (fun a => by
    match a with
    | ⟨0, _⟩ => show (q 0).val = if (1600000 : Nat) = 1 then 0 else (q 0).val; rw [if_neg (by decide)])]
  show Scalar.select (IntOp.cmpi .slt (src (edgeOf1 q)) (broadcastInDim S1600000 ![] bcast_S_S1600000 (constantI S_ 32 0#32) (edgeOf1 q))) _ (src (edgeOf1 q)) = _
  rw [splat_edges]
  exact sel_of_ne _ _ _ (word_in_range _ (hsrc _).1 (hsrc _).2).1

include hsrc in
/-- So the range test holds at every entry. -/
theorem inRange_apply (i : S1600000x128.Idx) : inRange src i = 1#1 := by
  unfold inRange
  rw [broadcastInDim_apply _ bcast_S1600000_S1600000x128_0 _ i (edgeOf i) (fun a => by
    match a with
    | ⟨0, _⟩ => show (i 0).val = if (1600000 : Nat) = 1 then 0 else (i 0).val; rw [if_neg (by decide)])]
  refine Cert.LibAndReduce.reduce_andi_of_all _ _ _ _ _ rfl (fun q => ?_)
  show IntOp.andi (IntOp.cmpi .sge (wrapIdx src q) (broadcastInDim S1600000x1 ![] bcast_S_S1600000x1 (constantI S_ 32 0#32) q))
    (IntOp.cmpi .sle (wrapIdx src q) (broadcastInDim S1600000x1 ![0, 1] bcast_S1x1_S1600000x1_0_1
      (broadcastInDim S1x1 ![1] bcast_S1_S1x1_1 (constantI S1 32 99999#32)) q)) = 1#1
  rw [wrapIdx_apply src hsrc, splat_starts, splat_last]
  exact IntOp.andi_eq_one.2 ⟨(hsrc _).1, (word_in_range _ (hsrc _).1 (hsrc _).2).2⟩

include hsrc in
/-- With every source index a row of the table, `jnp.take`'s lookup is the plain gather. -/
theorem lookupFill_eq (tbl : FVec Ideal S100000x128 .f32) : lookupFill tbl src = lookup tbl src := by
  funext i
  unfold lookupFill
  exact sel_of_eq _ _ _ (inRange_apply src hsrc i)

end Cert.KernelIdeal.Messages

end
-- ==== Proof.KernelValue.lean ====
/-
  The kernel program's result as one function of its six arguments. Reading the buffer contents back through the
  program's four segments: the last pipeline leaves its input with the bias added; its input is what the second
  stretch of host operations wrote, the weighted looked-up rows summed per destination; the rows are what the first
  stretch looked up in the array the first pipeline left; and that array is the projected features. No segment
  writes an argument, so each argument is read at its launch contents. With every source index a row of the table
  the lookup's fill is never chosen and the result is: bias + Σ over edges into a node of weight × (features ×
  weights) at the edge's source.
-/
import proofs.«418550_j16801912062643_1_alg».proof.Proof.Projection
import proofs.«418550_j16801912062643_1_alg».proof.Proof.BiasAdd
import proofs.«418550_j16801912062643_1_alg».proof.Proof.Messages

set_option maxRecDepth 16384

noncomputable section

namespace Cert.KernelIdeal.Result

open Cert.KernelIdeal Cert.KernelIdeal.Gen Idealize.ShloMosaic Idealize.ShloMosaic.TcCoe Idealize.SL.Sem
open Cert.KernelIdeal.Projection Cert.KernelIdeal.BiasAdd Cert.KernelIdeal.Messages

/-- The graph convolution: the projected features looked up at each edge's source, scaled by the edge's weight,
    summed per destination node, the bias added. -/
def conv (x : FVec Ideal S100000x128 .f32) (src dst : IVec S1600000 32) (w : FVec Ideal S1600000 .f32)
    (wt : FVec Ideal S128x128 .f32) (b : FVec Ideal S128 .f32) : FVec Ideal S100000x128 .f32 :=
  withBias (aggregate dst w (lookup (proj x wt) src)) b

variable (m : (ℓ : Loc nD τ sig) → Buf (Elt Ideal) ℓ) (ρ : Dev nD → PrngReg)

/-! ## The arguments, read at each boundary -/

theorem arg1_at1 (c : Dev nD) : W1 m ρ c (Proc.devRef .tc main_arg1) = m ((c : Thread nD τ).loc main_arg1) :=
  (W1_of_ne m ρ c main_arg1 (by decide)).trans rfl
theorem arg2_at1 (c : Dev nD) : W1 m ρ c (Proc.devRef .tc main_arg2) = m ((c : Thread nD τ).loc main_arg2) :=
  (W1_of_ne m ρ c main_arg2 (by decide)).trans rfl
theorem arg3_at1 (c : Dev nD) : W1 m ρ c (Proc.devRef .tc main_arg3) = m ((c : Thread nD τ).loc main_arg3) :=
  (W1_of_ne m ρ c main_arg3 (by decide)).trans rfl
theorem arg5_at1 (c : Dev nD) : W1 m ρ c (Proc.devRef .tc main_arg5) = m ((c : Thread nD τ).loc main_arg5) :=
  (W1_of_ne m ρ c main_arg5 (by decide)).trans rfl

theorem arg2_at2 (c : Dev nD) : W2 m ρ c (Proc.devRef .tc main_arg2) = m ((c : Thread nD τ).loc main_arg2) :=
  (lookup_keeps_arg2 (W1 m ρ c)).trans (arg2_at1 m ρ c)
theorem arg3_at2 (c : Dev nD) : W2 m ρ c (Proc.devRef .tc main_arg3) = m ((c : Thread nD τ).loc main_arg3) :=
  (lookup_keeps_arg3 (W1 m ρ c)).trans (arg3_at1 m ρ c)
theorem arg5_at2 (c : Dev nD) : W2 m ρ c (Proc.devRef .tc main_arg5) = m ((c : Thread nD τ).loc main_arg5) :=
  (lookup_keeps_arg5 (W1 m ρ c)).trans (arg5_at1 m ρ c)
theorem arg5_at3 (c : Dev nD) : V3 m ρ c main_arg5 = m ((c : Thread nD τ).loc main_arg5) :=
  (aggregate_keeps_arg5 (W2 m ρ c)).trans (arg5_at2 m ρ c)

/-! ## The computed arrays -/

/-- After the first pipeline: the projected features. -/
theorem support_at1 (c : Dev nD) :
    W1 m ρ c (Proc.devRef .tc main_v0) = proj (m ((c : Thread nD τ).loc main_arg0)) (m ((c : Thread nD τ).loc main_arg4)) :=
  (W1_arr m ρ c 2).trans (Projection.final (V0 m ρ) c)

/-- After the first stretch: the looked-up rows, with `jnp.take`'s fill. -/
theorem rows_at2 (c : Dev nD) :
    W2 m ρ c (Proc.devRef .tc main_v1)
      = lookupFill (proj (m ((c : Thread nD τ).loc main_arg0)) (m ((c : Thread nD τ).loc main_arg4))) (m ((c : Thread nD τ).loc main_arg1)) := by
  refine (lookup_stage (W1 m ρ c)).trans ?_
  rw [support_at1, arg1_at1]

/-- After the second stretch: the weighted rows summed per destination. -/
theorem sums_at3 (c : Dev nD) :
    V3 m ρ c main_v7
      = aggregate (m ((c : Thread nD τ).loc main_arg2)) (m ((c : Thread nD τ).loc main_arg3))
          (lookupFill (proj (m ((c : Thread nD τ).loc main_arg0)) (m ((c : Thread nD τ).loc main_arg4))) (m ((c : Thread nD τ).loc main_arg1))) := by
  refine (aggregate_stage (W2 m ρ c)).trans ?_
  rw [arg2_at2, arg3_at2, rows_at2]

/-- After the second pipeline: the bias added. -/
theorem result_at4 (c : Dev nD) :
    W4 m ρ c (Proc.devRef .tc main_v8)
      = withBias (aggregate (m ((c : Thread nD τ).loc main_arg2)) (m ((c : Thread nD τ).loc main_arg3))
          (lookupFill (proj (m ((c : Thread nD τ).loc main_arg0)) (m ((c : Thread nD τ).loc main_arg4))) (m ((c : Thread nD τ).loc main_arg1))))
          (m ((c : Thread nD τ).loc main_arg5)) := by
  refine ((W4_arr m ρ c 2).trans (BiasAdd.final (V3 m ρ) c)).trans ?_
  rw [sums_at3, arg5_at3]

/-- With every source index a row of the node table the result is the graph convolution of the arguments. -/
theorem result_eq (c : Dev nD)
    (hsrc : ∀ p : S1600000.Idx, IntOp.cmpi .sge (m ((c : Thread nD τ).loc main_arg1) p) 0#32 = 1#1
      ∧ IntOp.cmpi .slt (m ((c : Thread nD τ).loc main_arg1) p) 100000#32 = 1#1) :
    W4 m ρ c (Proc.devRef .tc main_v8)
      = conv (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (result_at4 m ρ c).trans ?_
  unfold conv
  rw [lookupFill_eq _ hsrc]

end Cert.KernelIdeal.Result

end
-- ==== Proof.ReferenceValue.lean ====
/-
  The reference's result is the same graph convolution. The reference multiplies the node features by the weights as
  one matrix product, which at an entry is the same sum over the contracted axis as the blockwise product; it looks the
  rows up with `support[edge_src]`, the same gather at the same wrapped indices and no fill; it scales and sums per
  destination with the same operations; and it adds the bias laid out as one row and repeated down the rows, which at
  entry (r, c) adds bias c.
-/
import proofs.«418550_j16801912062643_1_alg».proof.Proof.KernelValue
import proofs.«418550_j16801912062643_1_alg».proof.Proof.Gen.ReferenceIdeal.Read

set_option maxRecDepth 16384

noncomputable section

namespace Cert.ReferenceIdeal.RefValue

open Cert.ReferenceIdeal Cert.ReferenceIdeal.Gen Cert.ReferenceIdeal.Read Idealize.ShloMosaic

/-- The reference's matrix product is the projected features. -/
theorem dot_eq (x : FVec Ideal S100000x128 .f32) (wt : FVec Ideal S128x128 .f32) :
    Host.dotGeneral dot_S100000x128_S128x128_S100000x128_1_0_0_1_n_n none x wt = Cert.KernelIdeal.Projection.proj x wt := by
  funext i
  refine (val_main_v0_apply x wt i).trans ?_
  unfold Cert.KernelIdeal.Projection.proj
  refine Finset.sum_congr rfl fun k _ => ?_
  have el : lidx_main_v0 i k = Cert.KernelIdeal.Projection.featAt i k := funext fun a => by
    match a with
    | ⟨0, _⟩ => rfl
    | ⟨1, _⟩ => rfl
  have er : ridx_main_v0 i k = Cert.KernelIdeal.Projection.weightAt i k := funext fun a => by
    match a with
    | ⟨0, _⟩ => rfl
    | ⟨1, _⟩ => rfl
  rw [el, er]

/-- Adding the bias, laid out as one row and repeated down the rows, adds to entry (r, c) bias c. -/
theorem bias_eq (y : FVec Ideal S100000x128 .f32) (b : FVec Ideal S128 .f32) :
    addf y (broadcastInDim S100000x128 ![0, 1] bcast_S1x128_S100000x128_0_1 (broadcastInDim S1x128 ![1] bcast_S128_S1x128_1 b))
      = Cert.KernelIdeal.BiasAdd.withBias y b := by
  funext i
  show y i + val_main_v15 (F := Ideal) b i = y i + b (Cert.KernelIdeal.BiasAdd.biasOf i)
  rw [val_main_v15_apply, val_main_v14_apply]
  have e : idx_main_v14 (idx_main_v15 i) = Cert.KernelIdeal.BiasAdd.biasOf i := funext fun a => by
    match a with
    | ⟨0, _⟩ => rfl
  rw [e]

set_option maxHeartbeats 400000 in
/-- The reference's whole term is the graph convolution of its arguments. -/
theorem ref_eq (x : FVec Ideal S100000x128 .f32) (src dst : IVec S1600000 32) (w : FVec Ideal S1600000 .f32)
    (wt : FVec Ideal S128x128 .f32) (b : FVec Ideal S128 .f32) :
    addf (Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 dst)
        (mulf (broadcastInDim S1600000x128 ![0, 1] bcast_S1600000x1_S1600000x128_0_1 (broadcastInDim S1600000x1 ![0] bcast_S1600000_S1600000x1_0 w))
          (Host.gather gather_S100000x128_S1600000x1_S1600000x128_1_0_n_n_0_1_1128 (Host.dotGeneral dot_S100000x128_S128x128_S100000x128_1_0_0_1_n_n none x wt)
            (broadcastInDim S1600000x1 ![0] bcast_S1600000_S1600000x1_0
              (select (cmpi .slt src (broadcastInDim S1600000 ![] bcast_S_S1600000 (constantI S_ 32 0#32)))
                (addi src (broadcastInDim S1600000 ![] bcast_S_S1600000 (constantI S_ 32 100000#32))) src)))))
      (broadcastInDim S100000x128 ![0, 1] bcast_S1x128_S100000x128_0_1 (broadcastInDim S1x128 ![1] bcast_S128_S1x128_1 b))
      = Cert.KernelIdeal.Result.conv x src dst w wt b := by
  rw [bias_eq, dot_eq]
  unfold Cert.KernelIdeal.Result.conv Cert.KernelIdeal.Messages.aggregate Cert.KernelIdeal.Messages.lookup Cert.KernelIdeal.Messages.wrapIdx
  rfl

end Cert.ReferenceIdeal.RefValue

end
-- ==== Proof.lean ====
/-
  A graph convolution layer in two ways. Both programs take node features x (100000 × 128), an edge list (source,
  destination, weight; 1600000 edges), weights W (128 × 128) and a bias (128), and return, for every node v and
  column c,   bias c + Σ over the edges e into v of weight e · (x · W)(source e, c).
  The kernel program computes x · W in fifty blocks of 2000 rows on the matrix unit (bf16 operands, which over the
  extended reals are the operands themselves), looks the rows up with `jnp.take`, scales and sums them on the host,
  and adds the bias in a second pass over fifty blocks of rows; the reference computes the one matrix product, indexes
  it with `support[edge_src]`, scales, sums and adds the broadcast bias. The two lookups differ only where a source
  index is not a row of the table: `jnp.take` fills a row of NaNs there, plain indexing clamps. The precondition
  keeps every source index inside `0 … 99999`, where the two agree; nothing else of it is used: a sum over the
  contracted axis is the same sum however the rows are blocked, and the gather, the scaling and the scatter-add are
  the same operations applied to equal arrays.
  The frames of the two kernel programs are the generated ones; the reference's is its generated run. The ideal pass
  rewrote nothing, so the kernel's idealization is its own text. For the equality of the results the kernel's run is
  taken with its result buffer named (Proof/KernelRun.lean), the buffer's contents are read back through the program
  (Proof/KernelValue.lean over Proof/Projection.lean, Proof/Messages.lean, Proof/BiasAdd.lean), the precondition gives
  the range of the source indices (Proof/SourceRange.lean), and the reference's term is the same function
  (Proof/ReferenceValue.lean).
-/
import proofs.«418550_j16801912062643_1_alg».proof.Defs
import proofs.«418550_j16801912062643_1_alg».proof.Proof.Gen.Kernel
import proofs.«418550_j16801912062643_1_alg».proof.Proof.Gen.Kernel.Skeleton
import proofs.«418550_j16801912062643_1_alg».proof.Proof.Gen.Kernel.Launch
import proofs.«418550_j16801912062643_1_alg».proof.Proof.Gen.Kernel.Points
import proofs.«418550_j16801912062643_1_alg».proof.Proof.Gen.Kernel.Frame
import proofs.«418550_j16801912062643_1_alg».proof.Proof.Gen.KernelIdeal
import proofs.«418550_j16801912062643_1_alg».proof.Proof.Gen.KernelIdeal.Skeleton
import proofs.«418550_j16801912062643_1_alg».proof.Proof.Gen.KernelIdeal.Launch
import proofs.«418550_j16801912062643_1_alg».proof.Proof.Gen.KernelIdeal.Points
import proofs.«418550_j16801912062643_1_alg».proof.Proof.Gen.KernelIdeal.Frame
import proofs.«418550_j16801912062643_1_alg».proof.Proof.Gen.ReferenceIdeal
import proofs.«418550_j16801912062643_1_alg».proof.Proof.Gen.Pre_finite_inputs
import proofs.«418550_j16801912062643_1_alg».proof.Proof.Gen.ReferenceIdeal.Run
import proofs.«418550_j16801912062643_1_alg».proof.Proof.Gen.ReferenceIdeal.Read
import proofs.«418550_j16801912062643_1_alg».proof.Proof.KernelRun
import proofs.«418550_j16801912062643_1_alg».proof.Proof.SourceRange
import proofs.«418550_j16801912062643_1_alg».proof.Proof.KernelValue
import proofs.«418550_j16801912062643_1_alg».proof.Proof.ReferenceValue
import Idealize.ShloMosaic.Adequacy
import Idealize.ShloMosaic.Init

noncomputable section

namespace Cert.Proof

open Idealize.ShloMosaic Idealize.SL.Sem

/-- The word-level kernel program runs and leaves its arguments as launched: the generated frame. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, with every source index a row of the node table, both programs end
    with the graph convolution of the arguments in their result buffers. -/
theorem algebraic : Cert.algebraic_KernelIdeal_ReferenceIdeal := by
  intro m ρ m' ρ' hpre hagree
  refine ⟨fun c => Cert.KernelIdeal.Result.conv
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result_eq m ρ c
          (fun p => Cert.KernelIdeal.SourceRange.src_in_range m hpre c p)), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [e0, e1, e2, e3, e4, e5]
    exact Cert.ReferenceIdeal.RefValue.ref_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
